-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S2x16x128x2048 : Shape := ⟨4, ![2, 16, 128, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S2x16x128x2048 : S_.BroadcastsInDim S2x16x128x2048 (![] : Fin 0 → Fin S2x16x128x2048.rank)
  reducesTo_S2x16x128x2048_S_d0_1_2_3 : S2x16x128x2048.ReducesTo [0, 1, 2, 3] S_

variable [Facts]

def fn {F : FTy → Type} [FloatOps F] (main_arg0 : FVec F S2x16x2048x128 .f32) (main_arg1 : FVec F S2x16x128x2048 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x128x2048 .f32 := Host.absf main_arg1
  let main_cst_0 : FVec F S_ .f32 := constant S_ .f32 0x7F800000#32
  let main_v5 : FVec F S2x16x128x2048 .f32 := broadcastInDim S2x16x128x2048 ![] bcast_S_S2x16x128x2048 main_cst_0
  let main_v6 : IVec S2x16x128x2048 1 := cmpf .olt main_v4 main_v5
  let main_c_1 : IVec S_ 1 := constantI S_ 1 1#1
  let main_v7 : IVec S_ 1 := (fun x v => Host.reduce IntOp.andi x v reducesTo_S2x16x128x2048_S_d0_1_2_3 h_S_) main_v6 main_c_1
  let main_v8 : IVec S_ 1 := andi main_v3 main_v7
  main_v8
-- ==== Kernel.lean ====
abbrev S2x16x2048x128 : Shape := ⟨4, ![2, 16, 2048, 128]⟩
abbrev S2x16x128x2048 : Shape := ⟨4, ![2, 16, 128, 2048]⟩
abbrev S32x2048x128 : Shape := ⟨3, ![32, 2048, 128]⟩
abbrev S32x128x2048 : Shape := ⟨3, ![32, 128, 2048]⟩
abbrev S32x2048x2048 : Shape := ⟨3, ![32, 2048, 2048]⟩
abbrev S1x256x128 : Shape := ⟨3, ![1, 256, 128]⟩
abbrev S1x128x2048 : Shape := ⟨3, ![1, 128, 2048]⟩
abbrev S1x256x2048 : Shape := ⟨3, ![1, 256, 2048]⟩
abbrev S256x128 : Shape := ⟨2, ![256, 128]⟩
abbrev S128x2048 : Shape := ⟨2, ![128, 2048]⟩
abbrev S256 : Shape := ⟨1, ![256]⟩
abbrev S256x1 : Shape := ⟨2, ![256, 1]⟩
abbrev S128 : Shape := ⟨1, ![128]⟩
abbrev S128x1 : Shape := ⟨2, ![128, 1]⟩
abbrev S256x2048 : Shape := ⟨2, ![256, 2048]⟩
abbrev S2x16x2048x2048 : Shape := ⟨4, ![2, 16, 2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S32x2048x128, .f32⟩
  | .hbm, ⟨3, _⟩ => ⟨S32x128x2048, .f32⟩
  | .hbm, ⟨4, _⟩ => ⟨S32x2048x2048, .f32⟩
  | .hbm, ⟨5, _⟩ => ⟨S2x16x2048x2048, .f32⟩
  | .local _ .vmem, ⟨0, _⟩ => ⟨S1x256x128, .f32⟩
  | .local _ .vmem, ⟨1, _⟩ => ⟨S1x256x128, .f32⟩
  | .local _ .vmem, ⟨2, _⟩ => ⟨S1x128x2048, .f32⟩
  | .local _ .vmem, ⟨3, _⟩ => ⟨S1x128x2048, .f32⟩
  | .local _ .vmem, ⟨4, _⟩ => ⟨S1x256x2048, .f32⟩
  | .local _ .vmem, ⟨5, _⟩ => ⟨S1x256x2048, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x16x2048x128_S32x2048x128 : S2x16x2048x128.ShapeCasts S32x2048x128
  shapeCasts_S2x16x128x2048_S32x128x2048 : S2x16x128x2048.ShapeCasts S32x128x2048
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  reduces_S256x128_S256 : S256x128.Reduces [1] S256
  shapeCasts_S256_S256x1 : S256.ShapeCasts S256x1
  broadcasts_S256x1_S256x128 : S256x1.Broadcasts S256x128
  reduces_S128x2048_S128 : S128x2048.Reduces [1] S128
  shapeCasts_S128_S128x1 : S128.ShapeCasts S128x1
  broadcasts_S128x1_S128x2048 : S128x1.Broadcasts S128x2048
  bitsLt_bf16_f32 : FTy.bits .bf16 < FTy.bits .f32
  reduces_S256x2048_S256 : S256x2048.Reduces [1] S256
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S32x2048x2048_S2x16x2048x2048 : S32x2048x2048.ShapeCasts S2x16x2048x2048
  dot_S256x128_S128x2048_S256x2048_1_0_0_1_n_n_wf : DotDims.WF S256x128 S128x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S32x2048x128.size a
  hwx0_0 : ∀ i : grid0.Coords, EltTy.bits .f32 = 32 ∨ (Rect.block (s := S32x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S32x128x2048.size a
  hwx0_1 : ∀ i : grid0.Coords, EltTy.bits .f32 = 32 ∨ (Rect.block (s := S32x128x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S32x2048x2048.size a
  hwx0_2 : ∀ i : grid0.Coords, EltTy.bits .f32 = 32 ∨ (Rect.block (s := S32x2048x2048) S1x256x2048.size (cc0_transform_2 i) (hinb0_2 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf

abbrev win0_0 : Pipeline.Window sig grid0 :=
  Pipeline.Window.ofSpec (Memref.whole main_v0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x16x128x2048 : Shape := ⟨4, ![2, 16, 128, 2048]⟩
abbrev S_ : Shape := ⟨0, ![]⟩
abbrev S2x16x2048 : Shape := ⟨3, ![2, 16, 2048]⟩
abbrev S2x16x2048x1 : Shape := ⟨4, ![2, 16, 2048, 1]⟩
abbrev S2x16x128 : Shape := ⟨3, ![2, 16, 128]⟩
abbrev S2x16x128x1 : Shape := ⟨4, ![2, 16, 128, 1]⟩
abbrev S2x16x2048x2048 : Shape := ⟨4, ![2, 16, 2048, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x128x2048, .f32⟩
  | .hbm, ⟨2, _⟩ => ⟨S2x16x2048x128, .f32⟩
  | .hbm, ⟨3, _⟩ => ⟨S_, .f32⟩
  | .hbm, ⟨4, _⟩ => ⟨S2x16x2048, .f32⟩
  | .hbm, ⟨5, _⟩ => ⟨S2x16x2048x1, .f32⟩
  | .hbm, ⟨6, _⟩ => ⟨S_, .f32⟩
  | .hbm, ⟨7, _⟩ => ⟨S2x16x2048x1, .f32⟩
  | .hbm, ⟨8, _⟩ => ⟨S2x16x2048x1, .f32⟩
  | .hbm, ⟨9, _⟩ => ⟨S_, .f32⟩
  | .hbm, ⟨10, _⟩ => ⟨S2x16x2048x1, .f32⟩
  | .hbm, ⟨11, _⟩ => ⟨S2x16x2048x1, .f32⟩
  | .hbm, ⟨12, _⟩ => ⟨S2x16x2048x128, .f32⟩
  | .hbm, ⟨13, _⟩ => ⟨S2x16x2048x128, .f32⟩
  | .hbm, ⟨14, _⟩ => ⟨S2x16x2048x128, .f32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S2x16x2048x128, .f32⟩
  | .hbm, ⟨19, _⟩ => ⟨S2x16x2048x128, .f32⟩
  | .hbm, ⟨20, _⟩ => ⟨S_, .f32⟩
  | .hbm, ⟨21, _⟩ => ⟨S2x16x2048x128, .f32⟩
  | .hbm, ⟨22, _⟩ => ⟨S2x16x2048x128, .f32⟩
  | .hbm, ⟨23, _⟩ => ⟨S2x16x2048x128, .f32⟩
  | .hbm, ⟨24, _⟩ => ⟨S2x16x2048x128, .f32⟩
  | .hbm, ⟨25, _⟩ => ⟨S2x16x128x2048, .f32⟩
  | .hbm, ⟨26, _⟩ => ⟨S_, .f32⟩
  | .hbm, ⟨27, _⟩ => ⟨S2x16x128, .f32⟩
  | .hbm, ⟨28, _⟩ => ⟨S2x16x128x1, .f32⟩
  | .hbm, ⟨29, _⟩ => ⟨S_, .f32⟩
  | .hbm, ⟨30, _⟩ => ⟨S2x16x128x1, .f32⟩
  | .hbm, ⟨31, _⟩ => ⟨S2x16x128x1, .f32⟩
  | .hbm, ⟨32, _⟩ => ⟨S_, .f32⟩
  | .hbm, ⟨33, _⟩ => ⟨S2x16x128x1, .f32⟩
  | .hbm, ⟨34, _⟩ => ⟨S2x16x128x1, .f32⟩
  | .hbm, ⟨35, _⟩ => ⟨S2x16x128x2048, .f32⟩
  | .hbm, ⟨36, _⟩ => ⟨S2x16x128x2048, .f32⟩
  | .hbm, ⟨37, _⟩ => ⟨S2x16x128x2048, .f32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S2x16x128x2048, .f32⟩
  | .hbm, ⟨42, _⟩ => ⟨S2x16x128x2048, .f32⟩
  | .hbm, ⟨43, _⟩ => ⟨S_, .f32⟩
  | .hbm, ⟨44, _⟩ => ⟨S2x16x128x2048, .f32⟩
  | .hbm, ⟨45, _⟩ => ⟨S2x16x128x2048, .f32⟩
  | .hbm, ⟨46, _⟩ => ⟨S2x16x128x2048, .f32⟩
  | .hbm, ⟨47, _⟩ => ⟨S2x16x128x2048, .f32⟩
  | .hbm, ⟨48, _⟩ => ⟨S2x16x2048x2048, .f32⟩
  | .hbm, ⟨49, _⟩ => ⟨S2x16x2048x2048, .f32⟩
  | .hbm, ⟨50, _⟩ => ⟨S_, .f32⟩
  | .hbm, ⟨51, _⟩ => ⟨S2x16x2048, .f32⟩
  | .hbm, ⟨52, _⟩ => ⟨S2x16x2048x1, .f32⟩
  | .hbm, ⟨53, _⟩ => ⟨S_, .f32⟩
  | .hbm, ⟨54, _⟩ => ⟨S2x16x2048x1, .f32⟩
  | .hbm, ⟨55, _⟩ => ⟨S2x16x2048x1, .f32⟩
  | .hbm, ⟨56, _⟩ => ⟨S_, .f32⟩
  | .hbm, ⟨57, _⟩ => ⟨S2x16x2048x1, .f32⟩
  | .hbm, ⟨58, _⟩ => ⟨S2x16x2048x1, .f32⟩
  | .hbm, ⟨59, _⟩ => ⟨S2x16x2048x2048, .f32⟩
  | .hbm, ⟨60, _⟩ => ⟨S2x16x2048x2048, .f32⟩
  | .hbm, ⟨61, _⟩ => ⟨S2x16x2048x2048, .f32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S2x16x2048x2048, .f32⟩
  | .hbm, ⟨66, _⟩ => ⟨S2x16x2048x2048, .f32⟩
  | .hbm, ⟨67, _⟩ => ⟨S_, .f32⟩
  | .hbm, ⟨68, _⟩ => ⟨S2x16x2048x2048, .f32⟩
  | .hbm, ⟨69, _⟩ => ⟨S2x16x2048x2048, .f32⟩
  | .hbm, ⟨70, _⟩ => ⟨S2x16x2048x2048, .f32⟩
  | .hbm, ⟨71, _⟩ => ⟨S2x16x2048x2048, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_c_7 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_c_12 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]

class Facts₀ : Prop where
  reducesTo_S2x16x2048x128_S2x16x2048_d3 : S2x16x2048x128.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x128_0_1_2_3 : S2x16x2048x1.BroadcastsInDim S2x16x2048x128 (![0, 1, 2, 3] : Fin 4 → Fin S2x16x2048x128.rank)
  bcast_S_S2x16x2048x128 : S_.BroadcastsInDim S2x16x2048x128 (![] : Fin 0 → Fin S2x16x2048x128.rank)
  reducesTo_S2x16x128x2048_S2x16x128_d3 : S2x16x128x2048.ReducesTo [3] S2x16x128
  bcast_S2x16x128_S2x16x128x1_0_1_2 : S2x16x128.BroadcastsInDim S2x16x128x1 (![0, 1, 2] : Fin 3 → Fin S2x16x128x1.rank)
  bcast_S_S2x16x128x1 : S_.BroadcastsInDim S2x16x128x1 (![] : Fin 0 → Fin S2x16x128x1.rank)
  bcast_S2x16x128x1_S2x16x128x2048_0_1_2_3 : S2x16x128x1.BroadcastsInDim S2x16x128x2048 (![0, 1, 2, 3] : Fin 4 → Fin S2x16x128x2048.rank)
  bcast_S_S2x16x128x2048 : S_.BroadcastsInDim S2x16x128x2048 (![] : Fin 0 → Fin S2x16x128x2048.rank)
  reducesTo_S2x16x2048x2048_S2x16x2048_d3 : S2x16x2048x2048.ReducesTo [3] S2x16x2048
  bcast_S2x16x2048x1_S2x16x2048x2048_0_1_2_3 : S2x16x2048x1.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  dot_S2x16x2048x128_S2x16x128x2048_S2x16x2048x2048_3_2_2_3_01_01_wf : DotDims.WF S2x16x2048x128 S2x16x128x2048 S2x16x2048x2048 [3] [2] [2] [3] [0, 1] [0, 1]

variable [Facts₀]

def dot_S2x16x2048x128_S2x16x128x2048_S2x16x2048x2048_3_2_2_3_01_01 : DotDims S2x16x2048x128 S2x16x128x2048 S2x16x2048x2048 where
  lhsContracting := [3]
  rhsContracting := [2]
  lhsNonContracting := [2]
  rhsNonContracting := [3]
  lhsBatch := [0, 1]
  rhsBatch := [0, 1]
  wf := dot_S2x16x2048x128_S2x16x128x2048_S2x16x2048x2048_3_2_2_3_01_01_wf

class Facts : Prop extends Facts₀ where

variable [Facts]
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Quant.lean ====
/-
  Symmetric eight-bit fake quantisation of a row, and the quantised matrix product, on the extended reals.

  A row `r` is scaled by `s = max(max_k |r k|, ε) / 127`; an entry `v` of it becomes
  `min(127, max(−128, round(v / s))) · s`, rounding to nearest with ties to even. The quantised product of a
  left row and a right matrix quantises the left row, quantises every row of the right matrix, contracts the two,
  and quantises the resulting row once more. Every operation is the ideal instance's own (an extended real, the exact
  operation), and the constants stay the words the programs spell.

  Two readings of a row's quantisation are proved equal to it here: the vector form, over a two-dimensional tile whose
  row maximum is a lane reduction kept as a column and broadcast back; and the array form, over a rank-4 array whose
  row maximum is a reduction over the last axis broadcast back along it, its clipping bounds converted from integers.
-/
import Idealize.ShloMosaic.PureOps.Ideal.Laws
import Idealize.ShloMosaic.Lib.ValueIdx
import Idealize.ShloMosaic.Lib.Pipeline.Value
import proofs.«123343_j85701777424723_1_alg».proof.Proof.LibKeepdims

noncomputable section

namespace Cert.Quant

open Idealize.ShloMosaic Idealize.ShloMosaic.ValueIdx

/-! ## The specification -/

/-- A row's largest absolute value, folded from −∞. -/
def amax {n : ℕ} (r : Fin n → EReal) : EReal :=
  (Finset.univ : Finset (Fin n)).fold max (Ideal.ofBits .f32 0xFF800000#32) (fun k => FloatOps.absf (F := Ideal) (φ := .f32) (r k))

/-- The row's quantisation step: its largest absolute value, at least ε, over 127. -/
def scale {n : ℕ} (r : Fin n → EReal) : EReal :=
  FloatOps.divf (F := Ideal) (φ := .f32) (FloatOps.maximumf (F := Ideal) (φ := .f32) (amax r) (Ideal.ofBits .f32 0x322BCC77#32))
    (Ideal.ofBits .f32 0x42FE0000#32)

/-- One value quantised at step `s`: rounded to the nearest multiple, clipped to [−128, 127] multiples. -/
def quant (s v : EReal) : EReal :=
  FloatOps.mulf (F := Ideal) (φ := .f32)
    (FloatOps.minimumf (F := Ideal) (φ := .f32) (Ideal.ofBits .f32 0x42FE0000#32)
      (FloatOps.maximumf (F := Ideal) (φ := .f32) (Ideal.ofBits .f32 0xC3000000#32)
        (FloatOps.roundeven (F := Ideal) (φ := .f32) (FloatOps.divf (F := Ideal) (φ := .f32) v s)))) s

/-- Entry `k` of the row `r` quantised at the row's own step. -/
def fq {n : ℕ} (r : Fin n → EReal) (k : Fin n) : EReal := quant (scale r) (r k)

/-- The quantised product at column `n`: the left row `l` and each row of the right matrix `R` quantised, contracted, and
    the resulting row quantised again. -/
def qmm {K N : ℕ} (l : Fin K → EReal) (R : Fin K → Fin N → EReal) (n : Fin N) : EReal :=
  fq (fun n' => ∑ k : Fin K, fq l k * fq (R k) n') n

/-! ## The vector form: a two-dimensional tile quantised row by row -/

section Tile
variable {a b : ℕ}

/-- Row `p` of the reduced vector with column `k` put back is the tile index `(p, k)`. -/
theorem lift_row (h : (⟨2, ![a, b]⟩ : Shape).Reduces [1] ⟨1, ![a]⟩) (p : Fin a) (k : Fin ((⟨2, ![a, b]⟩ : Shape).size 1)) :
    h.lift (ix1 p) k = ix2 p (⟨k.val, k.isLt⟩ : Fin b) := by
  funext c; apply Fin.ext
  fin_cases c <;> rfl

/-- The lane reduction by maximum from −∞, at row `p`, is the fold of `max` over that row's entries. -/
theorem rowmax_apply (v : FVec Ideal ⟨2, ![a, b]⟩ .f32) (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  rw [Ideal.multiReduction_maximumf_single]
  exact congrArg (fun f => Finset.fold max (Ideal.ofBits .f32 0xFF800000#32) f (Finset.univ : Finset (Fin b)))
    (funext fun k => congrArg v (lift_row h p k))

/-- The tile's column of quantisation steps, one per row, as the vector unit computes it. -/
def tileScale (v : FVec Ideal ⟨2, ![a, b]⟩ .f32) (hr : (⟨2, ![a, b]⟩ : Shape).Reduces [1] ⟨1, ![a]⟩) (hφ : FKind.Formats .f32)
    (hacc : (0xFF800000#32 : BitVec 32) = FKind.maximumf.neutral .f32 hφ) (hc : (⟨1, ![a]⟩ : Shape).ShapeCasts ⟨2, ![a, 1]⟩) :
    FVec Ideal ⟨2, ![a, 1]⟩ .f32 :=
  divf (maximumf (shapeCast ⟨2, ![a, 1]⟩ (multiReduction .maximumf [1] ⟨1, ![a]⟩ (absf v) 0xFF800000#32 hr hφ hacc) hc)
    (broadcast ⟨2, ![a, 1]⟩ (Scalar.ofBits .f32 0x322BCC77#32))) (broadcast ⟨2, ![a, 1]⟩ (Scalar.ofBits .f32 0x42FE0000#32))

/-- The tile quantised row by row, as the vector unit computes it. -/
def tileQuant (v : FVec Ideal ⟨2, ![a, b]⟩ .f32) (hr : (⟨2, ![a, b]⟩ : Shape).Reduces [1] ⟨1, ![a]⟩) (hφ : FKind.Formats .f32)
    (hacc : (0xFF800000#32 : BitVec 32) = FKind.maximumf.neutral .f32 hφ) (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  mulf (minimumf (broadcast ⟨2, ![a, b]⟩ (Scalar.ofBits .f32 0x42FE0000#32))
      (maximumf (broadcast ⟨2, ![a, b]⟩ (Scalar.ofBits .f32 0xC3000000#32))
        (roundeven (divf v (broadcastTo ⟨2, ![a, b]⟩ (tileScale v hr hφ hacc hc) hb)))))
    (broadcastTo ⟨2, ![a, b]⟩ (tileScale v hr hφ hacc hc) hb)

/-- The broadcast column read at `(p, q)` is row `p`'s step. -/
theorem tileScale_apply (v : FVec Ideal ⟨2, ![a, b]⟩ .f32) (hr : (⟨2, ![a, b]⟩ : Shape).Reduces [1] ⟨1, ![a]⟩) (hφ : FKind.Formats .f32)
    (hacc : (0xFF800000#32 : BitVec 32) = FKind.maximumf.neutral .f32 hφ) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (tileScale v hr hφ hacc hc) hb (ix2 p q) = scale (fun k => v (ix2 p k)) := by
  rw [Cert.LibKeepdims.broadcastTo_a1_ab_apply]
  show FloatOps.divf (F := Ideal) (φ := .f32) (FloatOps.maximumf (F := Ideal) (φ := .f32)
      (shapeCast ⟨2, ![a, 1]⟩ (multiReduction .maximumf [1] ⟨1, ![a]⟩ (absf v) 0xFF800000#32 hr hφ hacc) hc (ix2 p (0 : Fin 1)))
      (Ideal.ofBits .f32 0x322BCC77#32)) (Ideal.ofBits .f32 0x42FE0000#32) = _
  rw [Cert.LibKeepdims.shapeCast_a_a1_apply, rowmax_apply]
  rfl

/-- The quantised tile read at `(p, q)` is entry `q` of row `p` quantised at that row's step. -/
theorem tileQuant_apply (v : FVec Ideal ⟨2, ![a, b]⟩ .f32) (hr : (⟨2, ![a, b]⟩ : Shape).Reduces [1] ⟨1, ![a]⟩) (hφ : FKind.Formats .f32)
    (hacc : (0xFF800000#32 : BitVec 32) = FKind.maximumf.neutral .f32 hφ) (hc : (⟨1, ![a]⟩ : Shape).ShapeCasts ⟨2, ![a, 1]⟩)
    (hb : (⟨2, ![a, 1]⟩ : Shape).Broadcasts ⟨2, ![a, b]⟩) (p : Fin a) (q : Fin b) :
    tileQuant v hr hφ hacc hc hb (ix2 p q) = fq (fun k => v (ix2 p k)) q := by
  have e := tileScale_apply v hr hφ hacc hc hb p q
  show quant (broadcastTo ⟨2, ![a, b]⟩ (tileScale v hr hφ hacc hc) hb (ix2 p q)) (v (ix2 p q)) = _
  rw [e]
  rfl

end Tile

/-! ## The array form: a rank-4 array quantised along its last axis -/

section Array
variable {a b c d : ℕ}

/-- The reduced index `(i, j, k)` with last coordinate `l` put back is `(i, j, k, l)`. -/
theorem lift_last (h : (⟨4, ![a, b, c, d]⟩ : Shape).Reduces [3] ⟨3, ![a, b, c]⟩) (i : Fin a) (j : Fin b) (k : Fin c)
    (l : Fin ((⟨4, ![a, b, c, d]⟩ : Shape).size 3)) : h.lift (ix3 i j k) l = ix4 i j k (⟨l.val, l.isLt⟩ : Fin d) := by
  funext e; apply Fin.ext
  fin_cases e <;> rfl

/-- The reduction by maximum over the last axis from −∞, at `(i, j, k)`, is the fold of `max` over that row. -/
theorem lastmax_apply (x : FVec Ideal ⟨4, ![a, b, c, d]⟩ .f32) (h' : (⟨4, ![a, b, c, d]⟩ : Shape).ReducesTo [3] ⟨3, ![a, b, c]⟩)
    (h : (⟨4, ![a, b, c, d]⟩ : Shape).Reduces [3] ⟨3, ![a, b, c]⟩) (hu : 0 < (⟨0, ![]⟩ : Shape).numel) (i : Fin a) (j : Fin b) (k : Fin c) :
    Host.reduce FloatOps.maximumf x (constant (⟨0, ![]⟩ : Shape) .f32 0xFF800000#32) h' hu (ix3 i j k)
      = (Finset.univ : Finset (Fin d)).fold max (Ideal.ofBits .f32 0xFF800000#32) (fun l => x (ix4 i j k l)) := by
  rw [Host.reduce_eq_fold_single FloatOps.maximumf x _ h' h hu]
  exact congrArg (fun f => Finset.fold max (Ideal.ofBits .f32 0xFF800000#32) f (Finset.univ : Finset (Fin d)))
    (funext fun l => congrArg x (lift_last h i j k l))

/-- The array's quantisation steps, one per row, kept with a unit last axis. -/
def arrScale (x : FVec Ideal ⟨4, ![a, b, c, d]⟩ .f32) (h' : (⟨4, ![a, b, c, d]⟩ : Shape).ReducesTo [3] ⟨3, ![a, b, c]⟩)
    (hu : 0 < (⟨0, ![]⟩ : Shape).numel)
    (hk : (⟨3, ![a, b, c]⟩ : Shape).BroadcastsInDim ⟨4, ![a, b, c, 1]⟩ (![0, 1, 2] : Fin 3 → Fin 4))
    (hs : (⟨0, ![]⟩ : Shape).BroadcastsInDim ⟨4, ![a, b, c, 1]⟩ (![] : Fin 0 → Fin 4)) : FVec Ideal ⟨4, ![a, b, c, 1]⟩ .f32 :=
  Host.divf (maximumf (broadcastInDim ⟨4, ![a, b, c, 1]⟩ (![0, 1, 2] : Fin 3 → Fin 4) hk
        (Host.reduce FloatOps.maximumf (Host.absf x) (constant (⟨0, ![]⟩ : Shape) .f32 0xFF800000#32) h' hu))
      (broadcastInDim ⟨4, ![a, b, c, 1]⟩ (![] : Fin 0 → Fin 4) hs (constant (⟨0, ![]⟩ : Shape) .f32 0x322BCC77#32)))
    (broadcastInDim ⟨4, ![a, b, c, 1]⟩ (![] : Fin 0 → Fin 4) hs (constant (⟨0, ![]⟩ : Shape) .f32 0x42FE0000#32))

/-- The array quantised along its last axis, the clipping bounds converted from the integers −128 and 127. -/
def arrQuant (x : FVec Ideal ⟨4, ![a, b, c, d]⟩ .f32) (h' : (⟨4, ![a, b, c, d]⟩ : Shape).ReducesTo [3] ⟨3, ![a, b, c]⟩)
    (hu : 0 < (⟨0, ![]⟩ : Shape).numel)
    (hk : (⟨3, ![a, b, c]⟩ : Shape).BroadcastsInDim ⟨4, ![a, b, c, 1]⟩ (![0, 1, 2] : Fin 3 → Fin 4))
    (hs : (⟨0, ![]⟩ : Shape).BroadcastsInDim ⟨4, ![a, b, c, 1]⟩ (![] : Fin 0 → Fin 4))
    (hl : (⟨4, ![a, b, c, 1]⟩ : Shape).BroadcastsInDim ⟨4, ![a, b, c, d]⟩ (![0, 1, 2, 3] : Fin 4 → Fin 4))
    (hz : (⟨0, ![]⟩ : Shape).BroadcastsInDim ⟨4, ![a, b, c, d]⟩ (![] : Fin 0 → Fin 4)) : FVec Ideal ⟨4, ![a, b, c, d]⟩ .f32 :=
  mulf (minimumf (broadcastInDim ⟨4, ![a, b, c, d]⟩ (![] : Fin 0 → Fin 4) hz (sitofp .f32 (constantI (⟨0, ![]⟩ : Shape) 32 127#32)))
      (maximumf (broadcastInDim ⟨4, ![a, b, c, d]⟩ (![] : Fin 0 → Fin 4) hz (sitofp .f32 (constantI (⟨0, ![]⟩ : Shape) 32 4294967168#32)))
        (Host.roundeven (Host.divf x (broadcastInDim ⟨4, ![a, b, c, d]⟩ (![0, 1, 2, 3] : Fin 4 → Fin 4) hl (arrScale x h' hu hk hs))))))
    (broadcastInDim ⟨4, ![a, b, c, d]⟩ (![0, 1, 2, 3] : Fin 4 → Fin 4) hl (arrScale x h' hu hk hs))

/-- The integer 127 converted is the word the vector unit clips above with. -/
theorem sitofp_127 : FloatOps.sitofp (F := Ideal) .f32 (127#32 : BitVec 32) = Ideal.ofBits .f32 0x42FE0000#32 := by
  show (((127#32 : BitVec 32).toInt : ℝ) : EReal) = _
  rw [show (127#32 : BitVec 32).toInt = 127 by decide]
  simp [Ideal.ofBits, Ideal.ieee, -EReal.coe_mul]; norm_num

/-- The integer −128 converted is the word the vector unit clips below with. -/
theorem sitofp_neg128 : FloatOps.sitofp (F := Ideal) .f32 (4294967168#32 : BitVec 32) = Ideal.ofBits .f32 0xC3000000#32 := by
  show (((4294967168#32 : BitVec 32).toInt : ℝ) : EReal) = _
  rw [show (4294967168#32 : BitVec 32).toInt = -128 by decide]
  simp [Ideal.ofBits, Ideal.ieee, -EReal.coe_mul]; norm_num

/-- A coordinate below an extent is itself, or `0` when the extent is one. -/
theorem val_if_one (n : ℕ) (i : Fin n) : i.val = if n = 1 then 0 else i.val := by
  split
  · have := i.isLt; omega
  · rfl

/-- A scalar broadcast to every position reads the scalar. -/
theorem bcast_scalar_apply {t : Shape} (hz : (⟨0, ![]⟩ : Shape).BroadcastsInDim t (![] : Fin 0 → Fin t.rank))
    (y : FVec Ideal ⟨0, ![]⟩ .f32) (i : t.Idx) : broadcastInDim t (![] : Fin 0 → Fin t.rank) hz y i = y ix0 :=
  broadcastInDim_apply _ hz y i ix0 (fun e => e.elim0)

/-- The steps broadcast back along the last axis, read at `(i, j, k, l)`, are row `(i, j, k)`'s step. -/
theorem arrScale_apply (x : FVec Ideal ⟨4, ![a, b, c, d]⟩ .f32) (h' : (⟨4, ![a, b, c, d]⟩ : Shape).ReducesTo [3] ⟨3, ![a, b, c]⟩)
    (h : (⟨4, ![a, b, c, d]⟩ : Shape).Reduces [3] ⟨3, ![a, b, c]⟩)
    (hu : 0 < (⟨0, ![]⟩ : Shape).numel)
    (hk : (⟨3, ![a, b, c]⟩ : Shape).BroadcastsInDim ⟨4, ![a, b, c, 1]⟩ (![0, 1, 2] : Fin 3 → Fin 4))
    (hs : (⟨0, ![]⟩ : Shape).BroadcastsInDim ⟨4, ![a, b, c, 1]⟩ (![] : Fin 0 → Fin 4))
    (hl : (⟨4, ![a, b, c, 1]⟩ : Shape).BroadcastsInDim ⟨4, ![a, b, c, d]⟩ (![0, 1, 2, 3] : Fin 4 → Fin 4))
    (i : Fin a) (j : Fin b) (k : Fin c) (l : Fin d) :
    broadcastInDim ⟨4, ![a, b, c, d]⟩ (![0, 1, 2, 3] : Fin 4 → Fin 4) hl (arrScale x h' hu hk hs) (ix4 i j k l)
      = scale (fun l' => x (ix4 i j k l')) := by
  rw [broadcastInDim_apply _ hl (arrScale x h' hu hk hs) (ix4 i j k l) (ix4 i j k (0 : Fin 1)) (fun e => by
    match e with
    | ⟨0, _⟩ => exact val_if_one a i
    | ⟨1, _⟩ => exact val_if_one b j
    | ⟨2, _⟩ => exact val_if_one c k
    | ⟨3, _⟩ => show 0 = if (1 : ℕ) = 1 then 0 else l.val; rw [if_pos rfl])]
  show FloatOps.divf (F := Ideal) (φ := .f32) (FloatOps.maximumf (F := Ideal) (φ := .f32)
      (broadcastInDim ⟨4, ![a, b, c, 1]⟩ (![0, 1, 2] : Fin 3 → Fin 4) hk
        (Host.reduce FloatOps.maximumf (Host.absf x) (constant (⟨0, ![]⟩ : Shape) .f32 0xFF800000#32) h' hu) (ix4 i j k (0 : Fin 1)))
      (broadcastInDim ⟨4, ![a, b, c, 1]⟩ (![] : Fin 0 → Fin 4) hs (constant (⟨0, ![]⟩ : Shape) .f32 0x322BCC77#32) (ix4 i j k (0 : Fin 1))))
      (broadcastInDim ⟨4, ![a, b, c, 1]⟩ (![] : Fin 0 → Fin 4) hs (constant (⟨0, ![]⟩ : Shape) .f32 0x42FE0000#32) (ix4 i j k (0 : Fin 1))) = _
  rw [bcast_scalar_apply hs, bcast_scalar_apply hs,
    broadcastInDim_apply _ hk _ (ix4 i j k (0 : Fin 1)) (ix3 i j k) (fun e => by
      match e with
      | ⟨0, _⟩ => exact val_if_one a i
      | ⟨1, _⟩ => exact val_if_one b j
      | ⟨2, _⟩ => exact val_if_one c k),
    lastmax_apply (Host.absf x) h' h hu]
  rfl

/-- The quantised array read at `(i, j, k, l)` is entry `l` of row `(i, j, k)` quantised at that row's step. -/
theorem arrQuant_apply (x : FVec Ideal ⟨4, ![a, b, c, d]⟩ .f32) (h' : (⟨4, ![a, b, c, d]⟩ : Shape).ReducesTo [3] ⟨3, ![a, b, c]⟩)
    (h : (⟨4, ![a, b, c, d]⟩ : Shape).Reduces [3] ⟨3, ![a, b, c]⟩)
    (hu : 0 < (⟨0, ![]⟩ : Shape).numel)
    (hk : (⟨3, ![a, b, c]⟩ : Shape).BroadcastsInDim ⟨4, ![a, b, c, 1]⟩ (![0, 1, 2] : Fin 3 → Fin 4))
    (hs : (⟨0, ![]⟩ : Shape).BroadcastsInDim ⟨4, ![a, b, c, 1]⟩ (![] : Fin 0 → Fin 4))
    (hl : (⟨4, ![a, b, c, 1]⟩ : Shape).BroadcastsInDim ⟨4, ![a, b, c, d]⟩ (![0, 1, 2, 3] : Fin 4 → Fin 4))
    (hz : (⟨0, ![]⟩ : Shape).BroadcastsInDim ⟨4, ![a, b, c, d]⟩ (![] : Fin 0 → Fin 4))
    (i : Fin a) (j : Fin b) (k : Fin c) (l : Fin d) :
    arrQuant x h' hu hk hs hl hz (ix4 i j k l) = fq (fun l' => x (ix4 i j k l')) l := by
  have e := arrScale_apply x h' h hu hk hs hl i j k l
  show FloatOps.mulf (F := Ideal) (φ := .f32)
    (FloatOps.minimumf (F := Ideal) (φ := .f32)
      (broadcastInDim ⟨4, ![a, b, c, d]⟩ (![] : Fin 0 → Fin 4) hz (sitofp .f32 (constantI (⟨0, ![]⟩ : Shape) 32 127#32)) (ix4 i j k l))
      (FloatOps.maximumf (F := Ideal) (φ := .f32)
        (broadcastInDim ⟨4, ![a, b, c, d]⟩ (![] : Fin 0 → Fin 4) hz (sitofp .f32 (constantI (⟨0, ![]⟩ : Shape) 32 4294967168#32)) (ix4 i j k l))
        (FloatOps.roundeven (F := Ideal) (φ := .f32) (FloatOps.divf (F := Ideal) (φ := .f32) (x (ix4 i j k l))
          (broadcastInDim ⟨4, ![a, b, c, d]⟩ (![0, 1, 2, 3] : Fin 4 → Fin 4) hl (arrScale x h' hu hk hs) (ix4 i j k l))))))
    (broadcastInDim ⟨4, ![a, b, c, d]⟩ (![0, 1, 2, 3] : Fin 4 → Fin 4) hl (arrScale x h' hu hk hs) (ix4 i j k l)) = _
  rw [e, bcast_scalar_apply hz, bcast_scalar_apply hz]
  show FloatOps.mulf (F := Ideal) (φ := .f32)
    (FloatOps.minimumf (F := Ideal) (φ := .f32) (FloatOps.sitofp (F := Ideal) .f32 (127#32 : BitVec 32))
      (FloatOps.maximumf (F := Ideal) (φ := .f32) (FloatOps.sitofp (F := Ideal) .f32 (4294967168#32 : BitVec 32)) _)) _ = _
  rw [sitofp_127, sitofp_neg128]
  rfl

end Array

end Cert.Quant

end
-- ==== Proof.KernelBody.lean ====
/-
  What the kernel body computes for one grid point, index by index, on the extended reals.

  The body loads a `[1, 256, 128]` block of the left operand and the `[1, 128, 2048]` block of the right operand for
  the same batch entry, quantises each row by row, contracts them over the 128 shared coordinates (the change to a
  narrower float format is the identity on extended reals), and quantises each of the 256 result rows again. So entry
  `(u, r, n)` of what it stores is the quantised product of row `r` of the left block and the right block, at
  column `n`.
-/
import proofs.«123343_j85701777424723_1_alg».proof.Proof.Gen.KernelIdeal.Skeleton
import proofs.«123343_j85701777424723_1_alg».proof.Proof.Quant
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Quant

/-! ## The contraction read at an index -/

/-- The left operand is read at the result's row … -/
theorem lhs_rows (i : S256x2048.Idx) (q : dot_S256x128_S128x2048_S256x2048_1_0_0_1_n_n.contr.Idx) :
    (dot_S256x128_S128x2048_S256x2048_1_0_0_1_n_n.lhsIdx i q 0).val = (i 0).val := by
  unfold DotDims.lhsIdx
  rw [dif_neg (show ¬(0 : Fin S256x128.rank) ∈ dot_S256x128_S128x2048_S256x2048_1_0_0_1_n_n.lhsBatch by decide), dif_pos (show (0 : Fin S256x128.rank) ∈ dot_S256x128_S128x2048_S256x2048_1_0_0_1_n_n.lhsNonContracting by decide)]
  rfl
/-- … and the contracted coordinate; -/
theorem lhs_contr (i : S256x2048.Idx) (q : dot_S256x128_S128x2048_S256x2048_1_0_0_1_n_n.contr.Idx) :
    (dot_S256x128_S128x2048_S256x2048_1_0_0_1_n_n.lhsIdx i q 1).val = (q ⟨0, by decide⟩).val :=
  dot_S256x128_S128x2048_S256x2048_1_0_0_1_n_n.lhsIdx_val_of_single rfl i q
/-- the right operand at the contracted coordinate … -/
theorem rhs_contr (i : S256x2048.Idx) (q : dot_S256x128_S128x2048_S256x2048_1_0_0_1_n_n.contr.Idx) :
    (dot_S256x128_S128x2048_S256x2048_1_0_0_1_n_n.rhsIdx i q 0).val = (q ⟨0, by decide⟩).val :=
  dot_S256x128_S128x2048_S256x2048_1_0_0_1_n_n.rhsIdx_val_of_single rfl i q
/-- … and the result's column. -/
theorem rhs_cols (i : S256x2048.Idx) (q : dot_S256x128_S128x2048_S256x2048_1_0_0_1_n_n.contr.Idx) :
    (dot_S256x128_S128x2048_S256x2048_1_0_0_1_n_n.rhsIdx i q 1).val = (i 1).val := by
  unfold DotDims.rhsIdx
  rw [dif_neg (show ¬(1 : Fin S128x2048.rank) ∈ dot_S256x128_S128x2048_S256x2048_1_0_0_1_n_n.rhsBatch by decide), dif_pos (show (1 : Fin S128x2048.rank) ∈ dot_S256x128_S128x2048_S256x2048_1_0_0_1_n_n.rhsNonContracting by decide)]
  rfl

/-- The matrix unit's product into a zero accumulator, at `(p, n)`, is the sum over the 128 shared coordinates of the
    operands' products. -/
theorem contract_apply (l : FVec Ideal S256x128 .bf16) (r : FVec Ideal S128x2048 .bf16) (p : Fin 256) (n : Fin 2048) :
    matmul dot_S256x128_S128x2048_S256x2048_1_0_0_1_n_n none l r (constant (F := Ideal) S256x2048 .f32 0x00000000#32) (ix2 p n)
      = ∑ k : Fin 128, l (ix2 p k) * r (ix2 k n) := by
  simp only [matmul]
  rw [Ideal.matmul_constant_zero_apply, ← Equiv.sum_comp (contrEquiv1 dot_S256x128_S128x2048_S256x2048_1_0_0_1_n_n 128 rfl rfl).symm]
  refine Finset.sum_congr rfl fun k _ => ?_
  have hk := contrEquiv1_symm_val dot_S256x128_S128x2048_S256x2048_1_0_0_1_n_n 128 rfl rfl k
  have el : dot_S256x128_S128x2048_S256x2048_1_0_0_1_n_n.lhsIdx (ix2 p n) ((contrEquiv1 dot_S256x128_S128x2048_S256x2048_1_0_0_1_n_n 128 rfl rfl).symm k) = ix2 p k := funext fun a => Fin.ext (by
    match a with
    | ⟨0, _⟩ => exact lhs_rows _ _
    | ⟨1, _⟩ => exact (lhs_contr _ _).trans hk)
  have er : dot_S256x128_S128x2048_S256x2048_1_0_0_1_n_n.rhsIdx (ix2 p n) ((contrEquiv1 dot_S256x128_S128x2048_S256x2048_1_0_0_1_n_n 128 rfl rfl).symm k) = ix2 k n := funext fun a => Fin.ext (by
    match a with
    | ⟨0, _⟩ => exact (rhs_contr _ _).trans hk
    | ⟨1, _⟩ => exact rhs_cols _ _)
  rw [el, er]

/-! ## The body's two values -/

/-- The contraction the body forms is that of the two blocks, each viewed as a matrix and quantised row by row. -/
theorem product_eq (x0 : Vec Ideal S1x256x128 .f32) (x1 : Vec Ideal S1x128x2048 .f32) :
    k0_pay2 (F := Ideal) x0 x1
      = matmul dot_S256x128_S128x2048_S256x2048_1_0_0_1_n_n none
          (truncf .bf16 (tileQuant (shapeCast S256x128 x0 shapeCasts_S1x256x128_S256x128) reduces_S256x128_S256 (.inl rfl) rfl
            shapeCasts_S256_S256x1 broadcasts_S256x1_S256x128) bitsLt_bf16_f32)
          (truncf .bf16 (tileQuant (shapeCast S128x2048 x1 shapeCasts_S1x128x2048_S128x2048) reduces_S128x2048_S128 (.inl rfl) rfl
            shapeCasts_S128_S128x1 broadcasts_S128x1_S128x2048) bitsLt_bf16_f32)
          (constant (F := Ideal) S256x2048 .f32 0x00000000#32) := rfl

/-- What the body stores is the contraction quantised row by row, with a leading unit axis. -/
theorem stored_eq (x0 : Vec Ideal S1x256x128 .f32) (x1 : Vec Ideal S1x128x2048 .f32) :
    k0_pay1 (F := Ideal) (k0_pay2 x0 x1) (k0_pay3 x0 x1)
      = shapeCast S1x256x2048 (tileQuant (k0_pay2 (F := Ideal) x0 x1) reduces_S256x2048_S256 (.inl rfl) rfl
          shapeCasts_S256_S256x1 broadcasts_S256x1_S256x2048) shapeCasts_S256x2048_S1x256x2048 := rfl

/-- The contraction at `(r, n)`: row `r` of the left block quantised, against column `n` of the right block's
    quantised rows. -/
theorem product_apply (x0 : Vec Ideal S1x256x128 .f32) (x1 : Vec Ideal S1x128x2048 .f32) (r : Fin 256) (n : Fin 2048) :
    k0_pay2 (F := Ideal) x0 x1 (ix2 r n)
      = ∑ k : Fin 128, fq (fun k' : Fin 128 => x0 (ix3 (0 : Fin 1) r k')) k * fq (fun n' : Fin 2048 => x1 (ix3 (0 : Fin 1) k n')) n := by
  rw [product_eq, contract_apply]
  refine Finset.sum_congr rfl fun k _ => ?_
  rw [truncf_apply, truncf_apply]
  have e0 : (fun k' : Fin 128 => shapeCast S256x128 x0 shapeCasts_S1x256x128_S256x128 (ix2 r k')) = fun k' => x0 (ix3 (0 : Fin 1) r k') :=
    funext fun k' => shapeCast_1ab_ab_apply x0 shapeCasts_S1x256x128_S256x128 r k'
  have e1 : (fun n' : Fin 2048 => shapeCast S128x2048 x1 shapeCasts_S1x128x2048_S128x2048 (ix2 k n')) = fun n' => x1 (ix3 (0 : Fin 1) k n') :=
    funext fun n' => shapeCast_1ab_ab_apply x1 shapeCasts_S1x128x2048_S128x2048 k n'
  have hl := tileQuant_apply (shapeCast S256x128 x0 shapeCasts_S1x256x128_S256x128) reduces_S256x128_S256 (.inl rfl) rfl
    shapeCasts_S256_S256x1 broadcasts_S256x1_S256x128 r k
  have hr := tileQuant_apply (shapeCast S128x2048 x1 shapeCasts_S1x128x2048_S128x2048) reduces_S128x2048_S128 (.inl rfl) rfl
    shapeCasts_S128_S128x1 broadcasts_S128x1_S128x2048 k n
  exact congrArg₂ (fun s t : EReal => s * t) (hl.trans (congrArg (fun row => fq row k) e0)) (hr.trans (congrArg (fun row => fq row n) e1))

/-- ENTRY `(u, r, n)` OF WHAT THE BODY STORES is the quantised product of row `r` of the left block and the right
    block, at column `n`. -/
theorem stored_apply (x0 : Vec Ideal S1x256x128 .f32) (x1 : Vec Ideal S1x128x2048 .f32) (u : Fin 1) (r : Fin 256) (n : Fin 2048) :
    k0_pay1 (F := Ideal) (k0_pay2 x0 x1) (k0_pay3 x0 x1) (ix3 u r n)
      = qmm (fun k : Fin 128 => x0 (ix3 (0 : Fin 1) r k)) (fun (k : Fin 128) (n' : Fin 2048) => x1 (ix3 (0 : Fin 1) k n')) n := by
  rw [stored_eq, shapeCast_ab_1ab_apply]
  refine (tileQuant_apply (k0_pay2 (F := Ideal) x0 x1) reduces_S256x2048_S256 (.inl rfl) rfl shapeCasts_S256_S256x1
    broadcasts_S256x1_S256x2048 r n).trans ?_
  unfold qmm
  exact congrArg (fun row => fq row n) (funext fun n' => product_apply x0 x1 r n')

end Cert.KernelIdeal.Body

end
-- ==== Proof.Heads.lean ====
/-
  The quantised matrix product over a batch, in its two layouts.

  The arguments are `[2, 16, 2048, 128]` and `[2, 16, 128, 2048]`: for each of the 2 × 16 leading pairs a
  `[2048, 128]` left matrix and a `[128, 2048]` right matrix, and the result holds each pair's quantised product. The same
  computation over the arrays with the two leading axes merged into one of extent 32 gives the same numbers, entry
  `(b, h)` sitting at `16 b + h`: merging and splitting the leading axes moves no entry in row-major order and the
  computation never mixes leading indices.
-/
import proofs.«123343_j85701777424723_1_alg».proof.Proof.Quant

noncomputable section

namespace Cert.Quant

open Idealize.ShloMosaic Idealize.ShloMosaic.ValueIdx

/-- The result over the merged leading axis: entry `(g, m, n)` is the quantised product of row `m` of left matrix `g`
    and right matrix `g`, at column `n`. -/
def batched (y0 : (⟨3, ![32, 2048, 128]⟩ : Shape).Idx → EReal) (y1 : (⟨3, ![32, 128, 2048]⟩ : Shape).Idx → EReal) :
    (⟨3, ![32, 2048, 2048]⟩ : Shape).Idx → EReal :=
  fun i => qmm (fun k : Fin 128 => y0 (ix3 (i 0 : Fin 32) (i 1 : Fin 2048) k))
    (fun (k : Fin 128) (n' : Fin 2048) => y1 (ix3 (i 0 : Fin 32) k n')) (i 2 : Fin 2048)

/-- The result over the two leading axes: entry `(b, h, m, n)` likewise, for the pair `(b, h)`. -/
def headed (a0 : (⟨4, ![2, 16, 2048, 128]⟩ : Shape).Idx → EReal) (a1 : (⟨4, ![2, 16, 128, 2048]⟩ : Shape).Idx → EReal) :
    (⟨4, ![2, 16, 2048, 2048]⟩ : Shape).Idx → EReal :=
  fun i => qmm (fun k : Fin 128 => a0 (ix4 (i 0 : Fin 2) (i 1 : Fin 16) (i 2 : Fin 2048) k))
    (fun (k : Fin 128) (n' : Fin 2048) => a1 (ix4 (i 0 : Fin 2) (i 1 : Fin 16) k n')) (i 3 : Fin 2048)

/-- The pair `(b, h)` on the merged axis. -/
def pairIx (b : Fin 2) (h : Fin 16) : Fin 32 := ⟨b.val * 16 + h.val, by have := b.isLt; have := h.isLt; omega⟩

/-- Merging the arguments' leading axes, computing over the merged axis, and splitting the result's leading axis again
    is the computation over the two leading axes. -/
theorem split_batched_merge (a0 : (⟨4, ![2, 16, 2048, 128]⟩ : Shape).Idx → EReal) (a1 : (⟨4, ![2, 16, 128, 2048]⟩ : Shape).Idx → EReal)
    (h0 : (⟨4, ![2, 16, 2048, 128]⟩ : Shape).ShapeCasts ⟨3, ![32, 2048, 128]⟩)
    (h1 : (⟨4, ![2, 16, 128, 2048]⟩ : Shape).ShapeCasts ⟨3, ![32, 128, 2048]⟩)
    (h2 : (⟨3, ![32, 2048, 2048]⟩ : Shape).ShapeCasts ⟨4, ![2, 16, 2048, 2048]⟩) :
    shapeCast ⟨4, ![2, 16, 2048, 2048]⟩ (batched (shapeCast ⟨3, ![32, 2048, 128]⟩ a0 h0) (shapeCast ⟨3, ![32, 128, 2048]⟩ a1 h1)) h2
      = headed a0 a1 := by
  funext i
  obtain ⟨b, h, m, n, rfl⟩ : ∃ (b : Fin 2) (h : Fin 16) (m : Fin 2048) (n : Fin 2048), i = ix4 b h m n := ⟨i 0, i 1, i 2, i 3, eq_ix4 i⟩
  rw [shapeCast_apply _ h2 (ix4 b h m n) (ix3 (pairIx b h) m n) (by
    rw [Shape.rowMajor_val_three, Shape.rowMajor_val_four]
    show ((b.val * 16 + h.val) * 2048 + m.val) * 2048 + n.val = ((b.val * 16 + h.val) * 2048 + m.val) * 2048 + n.val
    rfl)]
  show qmm (fun k : Fin 128 => shapeCast ⟨3, ![32, 2048, 128]⟩ a0 h0 (ix3 (pairIx b h) m k))
      (fun (k : Fin 128) (n' : Fin 2048) => shapeCast ⟨3, ![32, 128, 2048]⟩ a1 h1 (ix3 (pairIx b h) k n')) n
    = qmm (fun k : Fin 128 => a0 (ix4 b h m k)) (fun (k : Fin 128) (n' : Fin 2048) => a1 (ix4 b h k n')) n
  have e0 : (fun k : Fin 128 => shapeCast ⟨3, ![32, 2048, 128]⟩ a0 h0 (ix3 (pairIx b h) m k)) = fun k => a0 (ix4 b h m k) :=
    funext fun k => shapeCast_apply _ h0 (ix3 (pairIx b h) m k) (ix4 b h m k) (by
      rw [Shape.rowMajor_val_three, Shape.rowMajor_val_four]
      show ((b.val * 16 + h.val) * 2048 + m.val) * 128 + k.val = ((b.val * 16 + h.val) * 2048 + m.val) * 128 + k.val
      rfl)
  have e1 : (fun (k : Fin 128) (n' : Fin 2048) => shapeCast ⟨3, ![32, 128, 2048]⟩ a1 h1 (ix3 (pairIx b h) k n')) = fun k n' => a1 (ix4 b h k n') :=
    funext fun k => funext fun n' => shapeCast_apply _ h1 (ix3 (pairIx b h) k n') (ix4 b h k n') (by
      rw [Shape.rowMajor_val_three, Shape.rowMajor_val_four]
      show ((b.val * 16 + h.val) * 128 + k.val) * 2048 + n'.val = ((b.val * 16 + h.val) * 128 + k.val) * 2048 + n'.val
      rfl)
  rw [e0, e1]

end Cert.Quant

end
-- ==== Proof.KernelArray.lean ====
/-
  From what one grid point stores to the whole result array, and through the program's last reshape.

  The grid has 32 × 8 points; point `(g, j)` stages rows `256 j … 256 j + 255` of left matrix `g`, the whole of right
  matrix `g`, and writes back rows `256 j … 256 j + 255` of result matrix `g`. A result row depends only on its own row of
  the left matrix and on the right matrix, so each block written back is the restriction of ONE function of the two
  arrays (the batch of quantised products over the merged leading axis), and the 256 blocks tile the result array. The
  arrays the region reads are the arguments with their two leading axes merged; the program's result is the region's
  array with the leading axis split again.
-/
import proofs.«123343_j85701777424723_1_alg».proof.Proof.Gen.KernelIdeal.Frame
import proofs.«123343_j85701777424723_1_alg».proof.Proof.KernelBody
import proofs.«123343_j85701777424723_1_alg».proof.Proof.Heads
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx Cert.Quant
open Idealize.ShloMosaic.Pipeline (Dat)

variable (m : (ℓ : Loc nD τ sig) → Buf (Elt Ideal) ℓ) (ρ : Dev nD → PrngReg)

/-- The left array as the region finds it. -/
abbrev lhsArr (c : Dev nD) : S32x2048x128.Idx → EReal := V m c main_v0
/-- The right array as the region finds it. -/
abbrev rhsArr (c : Dev nD) : S32x128x2048.Idx → EReal := V m c main_v1

theorem origin3 : (![0, 0, 0] : Fin 3 → Nat) = fun _ => 0 := funext fun a => by fin_cases a <;> rfl

/-- The printed index maps over the grid: the left window moves with the result's on the two leading axes, the right
    window with its leading axis only, every other block index is zero, and the result's stay in range. -/
theorem index_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 31 ∧ win0_2.index t (1 : Fin 3) ≤ 7 :=
  (by decide +kernel : ∀ t : Fin grid0.N, _)

/-- Every (matrix, row block) pair is some point's. -/
theorem index_onto : ∀ (g : Fin 32) (j : Fin 8), ∃ t : Fin cfg0.N, win0_2.index t = ![g.val, j.val, 0] :=
  (by decide +kernel : ∀ (g : Fin 32) (j : Fin 8), ∃ t : Fin grid0.N, win0_2.index t = ![g.val, j.val, 0])

/-- WHAT POINT `t` WRITES BACK is block `t` of the batch of quantised products of the two arrays. -/
theorem flushed_eq (c : Dev nD) (t : Fin cfg0.N) :
    (dats m 0 c).flushed 2 t = ((cfg0.win 2).blk t).view.read (Elt Ideal) (batched (lhsArr m c) (rhsArr m c)) := by
  show (cfg0.win 2).cut (grid0.coords t) ((dats m 0 c).after 2 t) = _
  rw [after0_2]
  unfold out0_2
  rw [View.canon_unit_zero origin3]
  simp only [View.ld_unit_zero (S := S1x256x128) origin3, View.ld_unit_zero (S := S1x128x2048) origin3]
  obtain ⟨e0, e1, e2, e3, e4, e5, e6, e7, e8⟩ := index_facts t
  funext y
  obtain ⟨u, r, n, rfl⟩ : ∃ (u : Fin 1) (r : Fin 256) (n : Fin 2048), y = ix3 u r n := ⟨y 0, y 1, y 2, eq_ix3 y⟩
  show k0_pay1 (F := Ideal) (k0_pay2 (iblk m c 0 t) (iblk m c 1 t)) (k0_pay3 (iblk m c 0 t) (iblk m c 1 t)) (ix3 u r n)
    = batched (lhsArr m c) (rhsArr m c) (((cfg0.win 2).blk t).view.emb (ix3 u r n))
  refine (Cert.KernelIdeal.Body.stored_apply (iblk m c 0 t) (iblk m c 1 t) u r n).trans ?_
  have hu : u.val = 0 := by omega
  have hr : r.val < 256 := r.isLt
  have hE : ((cfg0.win 2).blk t).view.emb (ix3 u r n)
      = ix3 (⟨win0_2.index t (0 : Fin 3), by omega⟩ : Fin 32) (⟨win0_2.index t (1 : Fin 3) * 256 + r.val, by omega⟩ : Fin 2048) n := by
    funext a; apply Fin.ext
    match a with
    | ⟨0, _⟩ => show win0_2.index t (0 : Fin 3) * 1 + 1 * u.val = win0_2.index t (0 : Fin 3); omega
    | ⟨1, _⟩ => show win0_2.index t (1 : Fin 3) * 256 + 1 * r.val = win0_2.index t (1 : Fin 3) * 256 + r.val; omega
    | ⟨2, _⟩ => show win0_2.index t (2 : Fin 3) * 2048 + 1 * n.val = n.val; omega
  rw [hE]
  show _ = qmm (fun k : Fin 128 => lhsArr m c (ix3 (⟨win0_2.index t (0 : Fin 3), by omega⟩ : Fin 32) (⟨win0_2.index t (1 : Fin 3) * 256 + r.val, by omega⟩ : Fin 2048) k))
      (fun (k : Fin 128) (n' : Fin 2048) => rhsArr m c (ix3 (⟨win0_2.index t (0 : Fin 3), by omega⟩ : Fin 32) k n')) n
  have hl : (fun k : Fin 128 => iblk m c 0 t (ix3 (0 : Fin 1) r k))
      = fun k : Fin 128 => lhsArr m c (ix3 (⟨win0_2.index t (0 : Fin 3), by omega⟩ : Fin 32) (⟨win0_2.index t (1 : Fin 3) * 256 + r.val, by omega⟩ : Fin 2048) k) :=
    funext fun k => by
      show V m c main_v0 (((cfg0.win 0).blk t).view.emb (ix3 (0 : Fin 1) r k)) = V m c main_v0 _
      refine congrArg (V m c main_v0) (funext fun a => Fin.ext ?_)
      match a with
      | ⟨0, _⟩ => show win0_0.index t (0 : Fin 3) * 1 + 1 * 0 = win0_2.index t (0 : Fin 3); omega
      | ⟨1, _⟩ => show win0_0.index t (1 : Fin 3) * 256 + 1 * r.val = win0_2.index t (1 : Fin 3) * 256 + r.val; omega
      | ⟨2, _⟩ => show win0_0.index t (2 : Fin 3) * 128 + 1 * k.val = k.val; omega
  have hrr : (fun (k : Fin 128) (n' : Fin 2048) => iblk m c 1 t (ix3 (0 : Fin 1) k n'))
      = fun (k : Fin 128) (n' : Fin 2048) => rhsArr m c (ix3 (⟨win0_2.index t (0 : Fin 3), by omega⟩ : Fin 32) k n') :=
    funext fun k => funext fun n' => by
      show V m c main_v1 (((cfg0.win 1).blk t).view.emb (ix3 (0 : Fin 1) k n')) = V m c main_v1 _
      refine congrArg (V m c main_v1) (funext fun a => Fin.ext ?_)
      match a with
      | ⟨0, _⟩ => show win0_1.index t (0 : Fin 3) * 1 + 1 * 0 = win0_2.index t (0 : Fin 3); omega
      | ⟨1, _⟩ => show win0_1.index t (1 : Fin 3) * 128 + 1 * k.val = k.val; omega
      | ⟨2, _⟩ => show win0_1.index t (2 : Fin 3) * 2048 + 1 * n'.val = n'.val; omega
  rw [hl, hrr]

/-- An index of the result array is in point `t`'s block iff each coordinate is in the block's range on its axis. -/
theorem mem_block (t : Fin cfg0.N) (i : S32x2048x2048.Idx) :
    i ∈ ((cfg0.win 2).blk t).view.set ↔ ∀ a : Fin 3, win0_2.index t a * S1x256x2048.size a ≤ (i a).val ∧ (i a).val < win0_2.index t a * S1x256x2048.size a + S1x256x2048.size a := by
  show i ∈ ((View.whole main_v2).slice (win0_2.rect t)).set ↔ _
  rw [View.set_slice_whole, Rect.mem_set_unit]
  exact Iff.rfl

/-- The blocks written back tile the result array: row `i₁` of matrix `i₀` is in the block of point `(i₀, i₁ / 256)`. -/
theorem covered (i : S32x2048x2048.Idx) : ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 2048 := (i 2).isLt
  obtain ⟨t, ht⟩ := index_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- THE RESULT ARRAY after the region is the batch of quantised products of the two arrays the region read. -/
theorem region_result (c : Dev nD) : (dats m 0 c).arrAt 2 cfg0.N = batched (lhsArr m c) (rhsArr m c) :=
  (dats m 0 c).arrAt_eq_of_cover 2 (batched (lhsArr m c) (rhsArr m c)) (fun t _ => flushed_eq m c t) covered

/-- The left array the region reads is the first argument with its leading axes merged. -/
theorem lhsArr_eq (c : Dev nD) :
    lhsArr m c = shapeCast S32x2048x128 (m ((c : Thread nD τ).loc main_arg0)) shapeCasts_S2x16x2048x128_S32x2048x128 := by
  show StableHlo.after hostOps0 (fun b => m (c, b)) (Proc.devRef .tc main_v0) = _
  after_results
  rfl

/-- The right array the region reads is the second argument with its leading axes merged. -/
theorem rhsArr_eq (c : Dev nD) :
    rhsArr m c = shapeCast S32x128x2048 (m ((c : Thread nD τ).loc main_arg1)) shapeCasts_S2x16x128x2048_S32x128x2048 := by
  show StableHlo.after hostOps0 (fun b => m (c, b)) (Proc.devRef .tc main_v1) = _
  after_results
  rfl

/-- The program's result, after the reshape that follows the region, is the region's array with its leading axis
    split. -/
theorem tail_result (c : Dev nD) :
    Pipeline.afterTail₀ cfgs (dats m) 0 (V0 m) [hostOps1] c main_v3
      = shapeCast S2x16x2048x2048 ((dats m 0 c).arrAt 2 cfg0.N) shapeCasts_S32x2048x2048_S2x16x2048x2048 := by
  unfold Pipeline.afterTail₀
  show StableHlo.after hostOps1 _ (Proc.devRef .tc main_v3) = _
  after_results
  exact congrArg (fun v => shapeCast S2x16x2048x2048 v shapeCasts_S32x2048x2048_S2x16x2048x2048)
    (Pipeline.withArrays_arr spec0 launch0.win.arr_inj c _ _ 2)

/-- THE KERNEL PROGRAM'S RUN: every weakly fair execution ends with the result at the batch of quantised products of the
    argument arrays, over their two leading axes, and the arguments unchanged. -/
theorem run : θ_run defs (onTc (τ := τ) (main (F := Ideal))) ⟨m, fun _ => 0, ρ⟩ fun r => ∀ c : Dev nD,
      r.2.mem ((c.tc : Thread nD τ).loc main_v3) = headed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (by
        rw [tail_result, region_result, lhsArr_eq, rhsArr_eq]
        exact split_batched_merge _ _ _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.RefValue.lean ====
/-
  The reference's result, index by index: the quantised matrix product of each leading pair.

  The reference quantises both arguments along their last axis (the row maximum of absolute values reduced over that
  axis and broadcast back, the clipping bounds converted from the integers −128 and 127), contracts them with the two
  leading axes as batch axes, and quantises the product along its last axis.
-/
import proofs.«123343_j85701777424723_1_alg».proof.Proof.Gen.ReferenceIdeal.Read
import proofs.«123343_j85701777424723_1_alg».proof.Proof.Quant
import proofs.«123343_j85701777424723_1_alg».proof.Proof.Heads

noncomputable section

namespace Cert.ReferenceIdeal.RefValue

open Cert.ReferenceIdeal Cert.ReferenceIdeal.Gen Cert.ReferenceIdeal.Read Idealize.ShloMosaic Idealize.ShloMosaic.ValueIdx Cert.Quant

theorem red_lhs : S2x16x2048x128.Reduces [3] S2x16x2048 := by decide
theorem red_rhs : S2x16x128x2048.Reduces [3] S2x16x128 := by decide
theorem red_out : S2x16x2048x2048.Reduces [3] S2x16x2048 := by decide

/-- The quantised left argument is the array form of the row quantisation. -/
theorem lhs_quant (x0 : (⟨S2x16x2048x128, .f32⟩ : BufTy).Contents (Elt Ideal)) :
    val_main_v12 (F := Ideal) x0 = arrQuant x0 reducesTo_S2x16x2048x128_S2x16x2048_d3 h_S_ bcast_S2x16x2048_S2x16x2048x1_0_1_2
      bcast_S_S2x16x2048x1 bcast_S2x16x2048x1_S2x16x2048x128_0_1_2_3 bcast_S_S2x16x2048x128 := rfl

/-- So is the quantised right argument, -/
theorem rhs_quant (x1 : (⟨S2x16x128x2048, .f32⟩ : BufTy).Contents (Elt Ideal)) :
    val_main_v25 (F := Ideal) x1 = arrQuant x1 reducesTo_S2x16x128x2048_S2x16x128_d3 h_S_ bcast_S2x16x128_S2x16x128x1_0_1_2
      bcast_S_S2x16x128x1 bcast_S2x16x128x1_S2x16x128x2048_0_1_2_3 bcast_S_S2x16x128x2048 := rfl

/-- and the result is the array form applied to the contraction. -/
theorem out_quant (x0 : (⟨S2x16x2048x128, .f32⟩ : BufTy).Contents (Elt Ideal)) (x1 : (⟨S2x16x128x2048, .f32⟩ : BufTy).Contents (Elt Ideal)) :
    val_main_v39 (F := Ideal) x0 x1 = arrQuant (val_main_v26 (F := Ideal) x0 x1) reducesTo_S2x16x2048x2048_S2x16x2048_d3 h_S_
      bcast_S2x16x2048_S2x16x2048x1_0_1_2 bcast_S_S2x16x2048x1 bcast_S2x16x2048x1_S2x16x2048x2048_0_1_2_3 bcast_S_S2x16x2048x2048 := rfl

/-- The reference's result at `(b, h, m, n)` is the quantised product of row `m` of the pair's left matrix and the pair's
    right matrix, at column `n`. -/
theorem result_apply (x0 : (⟨S2x16x2048x128, .f32⟩ : BufTy).Contents (Elt Ideal)) (x1 : (⟨S2x16x128x2048, .f32⟩ : BufTy).Contents (Elt Ideal))
    (b : Fin 2) (h : Fin 16) (m : Fin 2048) (n : Fin 2048) :
    val_main_v39 (F := Ideal) x0 x1 (ix4 b h m n)
      = qmm (fun k : Fin 128 => x0 (ix4 b h m k)) (fun (k : Fin 128) (n' : Fin 2048) => x1 (ix4 b h k n')) n := by
  rw [out_quant]
  refine (arrQuant_apply (val_main_v26 (F := Ideal) x0 x1) reducesTo_S2x16x2048x2048_S2x16x2048_d3 red_out h_S_
    bcast_S2x16x2048_S2x16x2048x1_0_1_2 bcast_S_S2x16x2048x1 bcast_S2x16x2048x1_S2x16x2048x2048_0_1_2_3 bcast_S_S2x16x2048x2048 b h m n).trans ?_
  unfold qmm
  refine congrArg (fun row => fq row n) (funext fun n' => ?_)
  rw [val_main_v26_apply]
  refine Finset.sum_congr rfl fun k _ => ?_
  have il : lidx_main_v26 (ix4 b h m n') k = ix4 b h m k := funext fun a => Fin.ext (by
    match a with | ⟨0, _⟩ => rfl | ⟨1, _⟩ => rfl | ⟨2, _⟩ => rfl | ⟨3, _⟩ => rfl)
  have ir : ridx_main_v26 (ix4 b h m n') k = ix4 b h k n' := funext fun a => Fin.ext (by
    match a with | ⟨0, _⟩ => rfl | ⟨1, _⟩ => rfl | ⟨2, _⟩ => rfl | ⟨3, _⟩ => rfl)
  rw [il, ir, lhs_quant, rhs_quant]
  exact congrArg₂ (fun s t : EReal => s * t)
    (arrQuant_apply x0 reducesTo_S2x16x2048x128_S2x16x2048_d3 red_lhs h_S_ bcast_S2x16x2048_S2x16x2048x1_0_1_2
      bcast_S_S2x16x2048x1 bcast_S2x16x2048x1_S2x16x2048x128_0_1_2_3 bcast_S_S2x16x2048x128 b h m k)
    (arrQuant_apply x1 reducesTo_S2x16x128x2048_S2x16x128_d3 red_rhs h_S_ bcast_S2x16x128_S2x16x128x1_0_1_2
      bcast_S_S2x16x128x1 bcast_S2x16x128x1_S2x16x128x2048_0_1_2_3 bcast_S_S2x16x128x2048 b h k n')

/-- THE REFERENCE'S RESULT is the batch of quantised products over the two leading axes. -/
theorem result_eq (x0 : (⟨S2x16x2048x128, .f32⟩ : BufTy).Contents (Elt Ideal)) (x1 : (⟨S2x16x128x2048, .f32⟩ : BufTy).Contents (Elt Ideal)) :
    val_main_v39 (F := Ideal) x0 x1 = headed x0 x1 := by
  funext i
  obtain ⟨b, h, m, n, rfl⟩ : ∃ (b : Fin 2) (h : Fin 16) (m : Fin 2048) (n : Fin 2048), i = ix4 b h m n := ⟨i 0, i 1, i 2, i 3, eq_ix4 i⟩
  exact result_apply x0 x1 b h m n

end Cert.ReferenceIdeal.RefValue

end
-- ==== Proof.lean ====
/-
  An eight-bit fake-quantised batched matrix product, tiled, against the same computation on whole arrays.

  Both programs take `inputs1 : [2, 16, 2048, 128]` and `inputs2 : [2, 16, 128, 2048]` and return `[2, 16, 2048, 2048]`. For
  each of the 2 × 16 leading pairs they quantise every row of the left matrix and every row of the right matrix
  (step `max(max |row|, ε) / 127`, values rounded to the nearest multiple with ties to even and clipped to [−128, 127]
  multiples), multiply the two, and quantise every row of the product the same way. The kernel merges the leading axes,
  walks a 32 × 8 grid of row blocks of 256 rows, and splits the leading axis of its result again; the reference works on
  the whole arrays. A row's quantisation reads that row only, and a product row reads its own left row and the whole
  right matrix, both of which every grid point has in full, so the tiling changes nothing: on the extended reals the two
  programs apply the same operations to the same numbers, and no algebraic law, hence no finiteness, is needed. The only
  difference in spelling is the clipping bounds, float words in the kernel and converted integers in the reference, which
  denote the same reals.

  The modules: `Quant` (the specification of a row's quantisation and of the quantised product, and its vector and array
  readings), `Heads` (the computation over merged and over split leading axes), `KernelBody` (what one grid point stores),
  `KernelArray` (the blocks tile the result; the reshapes around the region; the kernel program's run), `RefValue` (the
  reference's result). Here the claims are assembled.
-/
import proofs.«123343_j85701777424723_1_alg».proof.Defs
import proofs.«123343_j85701777424723_1_alg».proof.Proof.Gen.Kernel
import proofs.«123343_j85701777424723_1_alg».proof.Proof.Gen.Kernel.Skeleton
import proofs.«123343_j85701777424723_1_alg».proof.Proof.Gen.Kernel.Launch
import proofs.«123343_j85701777424723_1_alg».proof.Proof.Gen.Kernel.Points
import proofs.«123343_j85701777424723_1_alg».proof.Proof.Gen.Kernel.Frame
import proofs.«123343_j85701777424723_1_alg».proof.Proof.Gen.KernelIdeal
import proofs.«123343_j85701777424723_1_alg».proof.Proof.Gen.KernelIdeal.Skeleton
import proofs.«123343_j85701777424723_1_alg».proof.Proof.Gen.KernelIdeal.Launch
import proofs.«123343_j85701777424723_1_alg».proof.Proof.Gen.KernelIdeal.Points
import proofs.«123343_j85701777424723_1_alg».proof.Proof.Gen.KernelIdeal.Frame
import proofs.«123343_j85701777424723_1_alg».proof.Proof.Gen.ReferenceIdeal
import proofs.«123343_j85701777424723_1_alg».proof.Proof.Gen.Pre_finite_inputs
import proofs.«123343_j85701777424723_1_alg».proof.Proof.Gen.ReferenceIdeal.Run
import proofs.«123343_j85701777424723_1_alg».proof.Proof.Gen.ReferenceIdeal.Read
import proofs.«123343_j85701777424723_1_alg».proof.Proof.KernelArray
import proofs.«123343_j85701777424723_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: it runs, and writes only its own intermediate arrays. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the batch of quantised products of the arguments, over their two leading axes. -/
theorem algebraic : Cert.algebraic_KernelIdeal_ReferenceIdeal := by
  intro m ρ m' ρ' _ hagree
  refine ⟨fun c => Cert.Quant.headed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
